-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x3x256 : Shape := ⟨3, ![1, 3, 256]⟩
abbrev S1x3x8192 : Shape := ⟨3, ![1, 3, 8192]⟩
abbrev S1x1x256 : Shape := ⟨3, ![1, 1, 256]⟩
abbrev S1x1x8192 : Shape := ⟨3, ![1, 1, 8192]⟩
abbrev S1x8192 : Shape := ⟨2, ![1, 8192]⟩
abbrev S3x256 : Shape := ⟨2, ![3, 256]⟩
abbrev S3x8192 : Shape := ⟨2, ![3, 8192]⟩
abbrev S256 : Shape := ⟨1, ![256]⟩
abbrev S1x256 : Shape := ⟨2, ![1, 256]⟩
abbrev S8192 : Shape := ⟨1, ![8192]⟩
abbrev S256x8192 : Shape := ⟨2, ![256, 8192]⟩
abbrev S256x1 : Shape := ⟨2, ![256, 1]⟩
abbrev S4x8192 : Shape := ⟨2, ![4, 8192]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x1x8192, .f32⟩
  | .hbm, ⟨5, _⟩ => ⟨S4x1x8192, .f32⟩
  | .hbm, ⟨6, _⟩ => ⟨S4x8192, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x1x256, .f32⟩
  | .local _ .vmem, ⟨5, _⟩ => ⟨S1x1x256, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond3 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_16 : BitVec 32 := 0#32
  let v36 : BitVec 1 := Scalar.cmpi .ne v35 c0_i32_16
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x256_S256 : S3x256.Reduces [0] S256
  shapeCasts_S256_S1x256 : S256.ShapeCasts S1x256
  reduces_S3x8192_S8192 : S3x8192.Reduces [0] S8192
  shapeCasts_S8192_S1x8192 : S8192.ShapeCasts S1x8192
  bitsLt_bf16_f32 : FTy.bits .bf16 < FTy.bits .f32
  transposes_S1x256_p1_0_S256x1 : S1x256.Transposes [1, 0] S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S256x8192_S8192 : S256x8192.Reduces [0] S8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S3x256_S3x8192_S256x8192_0_0_1_1_n_n_wf : DotDims.WF S3x256 S3x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S4x3x8192.size a
  hwx0_0 : ∀ i : grid0.Coords, EltTy.bits .f32 = 32 ∨ (Rect.block (s := S4x3x8192) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x8192.size a
  hwx0_2 : ∀ i : grid0.Coords, EltTy.bits .f32 = 32 ∨ (Rect.block (s := S4x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf

abbrev win0_0 : Pipeline.Window sig grid0 :=
  Pipeline.Window.ofSpec (Memref.whole main_v0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KRuns.lean ====
import proofs.«165203_j3032246911459_1_alg».proof.Proof.Gen.Kernel.Frame
import proofs.«165203_j3032246911459_1_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The kernel body at one grid point, in each of its three control cases

The grid is (batch, tile); a point's second coordinate is the tile. The body branches on it three times: at the
first tile of a batch it RESETS the running column minimum (kept in scratch) to the tile's column minima; at every
later tile it FOLDS the tile's column minima into it; at the last tile it also COPIES the running minimum into the
second output's block. Every load and store is of a whole buffer, so each case's effect is: the first output's
buffer ends at the tile's row minima, the scratch at its new contents, and the second output's buffer either
untouched or at the copy. All of it is stated for any float instance.
-/

/-- The first tile of a batch (the point's tile coordinate is 0): the body resets the running minimum. -/
abbrev isFirst (i : grid0.Coords) : Prop := (Scalar.cmpi .ne (Scalar.extui (Scalar.cmpi .eq (BitVec.ofNat 32 (i 1).val) 0#32)) 0#32) = 1#1
/-- A later tile: the body folds into the running minimum. -/
abbrev isLater (i : grid0.Coords) : Prop := (Scalar.cmpi .ne (Scalar.extui (Scalar.cmpi .ne (BitVec.ofNat 32 (i 1).val) 0#32)) 0#32) = 1#1
/-- The last tile of a batch (tile coordinate 31): the body copies the running minimum out. -/
abbrev isLast (i : grid0.Coords) : Prop := k0_cond3 i = 1#1

/-- In the linear order of the 4 × 32 grid the tile coordinate of point `t` is `t mod 32`: the three conditions in
    closed form, decided over the 128 points. -/
theorem isFirst_iff : ∀ t : Fin cfg0.N, isFirst (grid0.coords t) ↔ t.val % 32 = 0 :=
  (by decide +kernel : ∀ t : Fin grid0.N, isFirst (grid0.coords t) ↔ t.val % 32 = 0)
theorem isLater_iff : ∀ t : Fin cfg0.N, isLater (grid0.coords t) ↔ t.val % 32 ≠ 0 :=
  (by decide +kernel : ∀ t : Fin grid0.N, isLater (grid0.coords t) ↔ t.val % 32 ≠ 0)
theorem isLast_iff : ∀ t : Fin cfg0.N, isLast (grid0.coords t) ↔ t.val % 32 = 31 :=
  (by decide +kernel : ∀ t : Fin grid0.N, isLast (grid0.coords t) ↔ t.val % 32 = 31)

/-- The zero offsets of a rank-3 and of a rank-2 whole-buffer access. -/
theorem hz3 : (![0, 0, 0] : Fin 3 → Nat) = fun _ => 0 := by funext a; fin_cases a <;> rfl
theorem hz2 : (![0, 0] : Fin 2 → Nat) = fun _ => 0 := by funext a; fin_cases a <;> rfl

/-- A load of a whole buffer through the whole rectangle reads the buffer's contents. -/
theorem ld_whole {sp : Space} {S : Shape} {e : EltTy} (m : Memref sig .tc sp S e) (hm : m.IsWhole) {off : Fin S.rank → Nat}
    (hz : off = fun _ => 0) {inb : ∀ a, off a + S.size a ≤ S.size a} (X : S.Idx → Elt F e) :
    View.readAt (Elt F) m.view (Rect.unit off S.size inb).toLoadRect (hm.unread X) = X := by
  rw [View.readAt_eq_ld, hm.read_unread, View.ld_unit_zero hz]

/-- One store through the whole rectangle leaves its payload, whatever was there. -/
theorem st_whole {sp : Space} {S : Shape} {e : EltTy} (v : View sig .tc sp S e) (f : v.ty.Contents (Elt F)) {off : Fin S.rank → Nat}
    (hz : off = fun _ => 0) {inb : ∀ a, off a + S.size a ≤ S.size a} (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A load through the whole rectangle of what one store through it left reads that store's payload. -/
theorem ldst_whole {sp : Space} {S : Shape} {e : EltTy} (v : View sig .tc sp S e) {off : Fin S.rank → Nat}
    (hz : off = fun _ => 0) {inb : ∀ a, off a + S.size a ≤ S.size a} (w : S.Idx → Elt F e) :
    v.readCov [(⟨Rect.unit off S.size inb, w⟩ : View.Piece (Elt F) S e)] (Rect.unit off S.size inb).toLoadRect = w :=
  View.readCov_unit_zero v hz inb w

/-- FIRST TILE. From the two input blocks `x0`, `x1` in their buffers (the others at anything) the body leaves the first
    output's buffer at the tile's row minima and the scratch at the tile's column minima; the second output's buffer is
    handed back as it was. -/
theorem run_first (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : isFirst i) (h2 : ¬isLater i) (h3 : ¬isLast i)
    (x0 : Vec F S1x3x256 .f32) (x1 : Vec F S1x3x8192 .f32) (d2 : Vec F S1x1x256 .f32) (x3 : Vec F S1x1x8192 .f32) (ds : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare x3 ∗ owns (c : Thread nD τ) arg6 fullShare ds
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare x3 ∗ owns (c : Thread nD τ) arg6 fullShare (k0_pay5 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr; · ipureintro; exact harg5.read_unread _
    iexact H3
  iexists _; isplitr
  swap; · iexact HS
  ipureintro
  rw [st_whole _ _ hz2, ld_whole arg2 harg2 hz3, ld_whole arg3 harg3 hz3]

/-- A MIDDLE TILE. With the scratch at `xs`, the body leaves the first output's buffer at the tile's row minima and the
    scratch at the entrywise minimum of `xs` and the tile's column minima; the second output's buffer is handed back as
    it was. -/
theorem run_mid (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : ¬isFirst i) (h2 : isLater i) (h3 : ¬isLast i)
    (x0 : Vec F S1x3x256 .f32) (x1 : Vec F S1x3x8192 .f32) (d2 : Vec F S1x1x256 .f32) (x3 : Vec F S1x1x8192 .f32) (xs : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare x3 ∗ owns (c : Thread nD τ) arg6 fullShare (k0_pay6 x0 x1 xs)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr; · ipureintro; exact harg5.read_unread _
    iexact H3
  iexists _; isplitr
  swap; · iexact HS
  ipureintro
  rw [st_whole _ _ hz2, ld_whole arg2 harg2 hz3, ld_whole arg3 harg3 hz3, ld_whole arg6 harg6 hz2]

/-- THE LAST TILE. As a middle tile, and then the scratch's new contents are copied into the second output's buffer
    (which was at anything). -/
theorem run_last (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : ¬isFirst i) (h2 : isLater i) (h3 : isLast i)
    (x0 : Vec F S1x3x256 .f32) (x1 : Vec F S1x3x8192 .f32) (d2 : Vec F S1x1x256 .f32) (d3 : Vec F S1x1x8192 .f32) (xs : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare d3 ∗ owns (c : Thread nD τ) arg6 fullShare xs
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare (k0_pay1 (k0_pay6 x0 x1 xs)) ∗ owns (c : Thread nD τ) arg6 fullShare (k0_pay6 x0 x1 xs)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr
    swap; · iexact H3
    ipureintro
    sl_unfold_words
    rw [st_whole _ _ hz3, ldst_whole _ hz2, ld_whole arg2 harg2 hz3, ld_whole arg3 harg3 hz3, ld_whole arg6 harg6 hz2]
  iexists _; isplitr
  swap; · iexact HS
  ipureintro
  sl_unfold_words
  rw [st_whole _ _ hz2, ld_whole arg2 harg2 hz3, ld_whole arg3 harg3 hz3, ld_whole arg6 harg6 hz2]

end Cert.Kernel.Body

end
-- ==== Proof.KData.lean ====
import proofs.«165203_j3032246911459_1_alg».proof.Proof.Gen.Kernel.Frame
import proofs.«165203_j3032246911459_1_alg».proof.Proof.KRuns
import Idealize.ShloMosaic.Lib.Pipeline.FrameSuffix

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The proof data of the one pipeline, the body obligation, and the run

After the body at grid point `t` (linear position in the 4 × 32 grid, tile = `t mod 32`):
the two inputs' buffers hold their blocks; the first output's buffer holds the tile's row minima of the distance
tile; the scratch holds the running column minimum of the batch so far (`scAt`: the tile's column minima at a
batch's first tile, the entrywise minimum with what the point before left at every later one); the second output's
buffer holds the copy of the scratch at a batch's last tile and is untouched elsewhere.
-/

/-- Each window's current staging memref at point `t`, as the pipeline passes it to the body, and its wholeness. -/
abbrev ms0 (t : Fin cfg0.N) : Memref sig .tc .vmem S1x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)
/-- The scratch operand: a whole scoped buffer of the kernel's own. -/
abbrev scM : Memref sig .tc .vmem S1x8192 .f32 := Memref.whole cc0_scratch0

/-- The two input blocks at point `t`, at their literal types: a [1, 3, 256] slab of the transposed pred cloud and the
    whole [1, 3, 8192] transposed target cloud of the batch. -/
abbrev xb0 (c : Dev nD) (t : Fin cfg0.N) : Vec F S1x3x256 .f32 := iblk m c 0 t
abbrev xb1 (c : Dev nD) (t : Fin cfg0.N) : Vec F S1x3x8192 .f32 := iblk m c 1 t

/-- THE RUNNING MINIMUM. What the scratch holds after the body at position `n`: at a batch's first tile the tile's column
    minima, at a later tile the entrywise minimum of those with what position `n - 1` left. -/
def scAt (c : Dev nD) : (n : ℕ) → n < cfg0.N → Vec F S1x8192 .f32
  | 0, hn => k0_pay5 (xb0 m c ⟨0, hn⟩) (xb1 m c ⟨0, hn⟩)
  | n + 1, hn =>
    if (n + 1) % 32 = 0 then k0_pay5 (xb0 m c ⟨n + 1, hn⟩) (xb1 m c ⟨n + 1, hn⟩)
    else k0_pay6 (xb0 m c ⟨n + 1, hn⟩) (xb1 m c ⟨n + 1, hn⟩) (scAt c n (Nat.lt_of_succ_lt hn))

/-- At a batch's first tile the scratch is reset. -/
theorem scAt_first (c : Dev nD) (t : Fin cfg0.N) (h : t.val % 32 = 0) :
    scAt m c t.val t.isLt = k0_pay5 (xb0 m c t) (xb1 m c t) := by
  obtain ⟨n, hn⟩ := t
  cases n with
  | zero => rfl
  | succ n => exact if_pos h

/-- At a later tile it is folded into. -/
theorem scAt_later (c : Dev nD) (t : Fin cfg0.N) (h : t.val % 32 ≠ 0) :
    scAt m c t.val t.isLt = k0_pay6 (xb0 m c t) (xb1 m c t) (scAt m c (t.val - 1) (Nat.lt_of_le_of_lt (Nat.sub_le _ _) t.isLt)) := by
  obtain ⟨n, hn⟩ := t
  cases n with
  | zero => exact absurd (Nat.zero_mod _) h
  | succ n => exact if_neg h

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch at anything; afterwards the scratch at
    what the point before left (`scAt`); the generator register at some state throughout. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (scAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-- Whatever the position, the invariant holds the scratch at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA_eq]
  | succ n =>
    rw [PhiS_succ]
    iintro ⟨HS, Hg⟩
    isplitl [HS]
    · iexists _; iexact HS
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (xb0 m c t) (xb1 m c t)
    | ⟨3, _⟩ => k0_pay1 (scAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (xb0 m c t) (xb1 m c t) := by dsimp only [dats]
theorem after3 (c : Dev nD) (t : Fin cfg0.N) : (dats m 0 c).after 3 t = k0_pay1 (scAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## Where the second output is idle -/

theorem idle3_of_not_last (t : Fin cfg0.N) (h : ¬isLast (grid0.coords t)) : cfg0.idle 3 (grid0.coords t) = true := by
  show (!(k0_cond3 (grid0.coords t) == 1#1)) = true
  simp only [Bool.not_eq_true', beq_eq_false_iff_ne, ne_eq]; exact h
theorem live3_of_last (t : Fin cfg0.N) (h : isLast (grid0.coords t)) : cfg0.idle 3 (grid0.coords t) = false := by
  show (!(k0_cond3 (grid0.coords t) == 1#1)) = false
  simp only [Bool.not_eq_false', beq_iff_eq]; exact h
theorem noFlush3_of_not_last (t : Fin cfg0.N) (h : ¬isLast (grid0.coords t)) : (cfg0.win 3).flush t = false := by
  cases hf : (cfg0.win 3).flush t with
  | false => rfl
  | true => exact absurd ((isLast_iff t).mpr ((flush0_3 t).mp hf)) h

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (k0_pay3 (xb0 m c t) (xb1 m c t)) := by
  rw [← after2 m c t]
theorem leaves3_last (c : Dev nD) (t : Fin cfg0.N) (h : isLast (grid0.coords t)) :
    (dats m 0 c).leavesExact 3 t = owns (c : Thread nD τ) (ms3 t) fullShare (k0_pay1 (scAt m c t.val t.isLt)) := by
  rw [← after3 m c t]; unfold Dat.leavesExact; rw [live3_of_last t h]
theorem leaves3_idle (c : Dev nD) (t : Fin cfg0.N) (h : ¬isLast (grid0.coords t)) :
    (dats m 0 c).leavesExact 3 t = iprop(∃ d, owns (c : Thread nD τ) (ms3 t) fullShare ((dats m 0 c).before 3 t d)) :=
  Dat.leavesExact_idle (dats m 0 c) 3 t (idle3_of_not_last t h) (noFlush3_of_not_last t h)

set_option maxHeartbeats 1600000 in
/-- The body at any point: the inputs' buffers hold their blocks; the tile coordinate says which case the point is in; the
    invariant hands the body the scratch at what the point before left (at anything before the very first point, which
    is a first tile and resets it) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  by_cases h0 : t.val % 32 = 0
  · -- a batch's first tile
    have hF : isFirst (grid0.coords t) := (isFirst_iff t).mpr h0
    have hL : ¬isLater (grid0.coords t) := fun h => (isLater_iff t).mp h h0
    have hE : ¬isLast (grid0.coords t) := fun h => by have := (isLast_iff t).mp h; omega
    rw [leaves3_idle m c t hE, scAt_first m c t h0]
    refine (sep_mono (PhiS_some m c _ _) .rfl).trans ?_
    iintro ⟨⟨⟨%ds, HS⟩, Hg⟩, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t) scM (Memref.isWhole_whole _) hF hL hE
      (xb0 m c t) (xb1 m c t) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hF : ¬isFirst (grid0.coords t) := fun h => h0 ((isFirst_iff t).mp h)
    have hL : isLater (grid0.coords t) := (isLater_iff t).mpr h0
    rw [PhiS_pos m c _ _ hz, scAt_later m c t h0]
    by_cases h31 : t.val % 32 = 31
    · -- a batch's last tile
      have hE : isLast (grid0.coords t) := (isLast_iff t).mpr h31
      rw [leaves3_last m c t hE, scAt_later m c t h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _) hF hL hE
        (xb0 m c t) (xb1 m c t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle tile
      have hE : ¬isLast (grid0.coords t) := fun h => h31 ((isLast_iff t).mp h)
      rw [leaves3_idle m c t hE]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _) hF hL hE
        (xb0 m c t) (xb1 m c t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run and the frame -/

set_option backward.isDefEq.respectTransparency.types false in
/-- Every weakly fair execution of @main terminates, and every final state has each array of the pipeline at what the
    library computes from the proof data and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs, faults nowhere, and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Runs.lean ====
import proofs.«165203_j3032246911459_1_alg».proof.Proof.Gen.KernelIdeal.Frame
import proofs.«165203_j3032246911459_1_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The kernel body at one grid point, in each of its three control cases

The grid is (batch, tile); a point's second coordinate is the tile. The body branches on it three times: at the
first tile of a batch it RESETS the running column minimum (kept in scratch) to the tile's column minima; at every
later tile it FOLDS the tile's column minima into it; at the last tile it also COPIES the running minimum into the
second output's block. Every load and store is of a whole buffer, so each case's effect is: the first output's
buffer ends at the tile's row minima, the scratch at its new contents, and the second output's buffer either
untouched or at the copy. All of it is stated for any float instance.
-/

/-- The first tile of a batch (the point's tile coordinate is 0): the body resets the running minimum. -/
abbrev isFirst (i : grid0.Coords) : Prop := (Scalar.cmpi .ne (Scalar.extui (Scalar.cmpi .eq (BitVec.ofNat 32 (i 1).val) 0#32)) 0#32) = 1#1
/-- A later tile: the body folds into the running minimum. -/
abbrev isLater (i : grid0.Coords) : Prop := (Scalar.cmpi .ne (Scalar.extui (Scalar.cmpi .ne (BitVec.ofNat 32 (i 1).val) 0#32)) 0#32) = 1#1
/-- The last tile of a batch (tile coordinate 31): the body copies the running minimum out. -/
abbrev isLast (i : grid0.Coords) : Prop := k0_cond3 i = 1#1

/-- In the linear order of the 4 × 32 grid the tile coordinate of point `t` is `t mod 32`: the three conditions in
    closed form, decided over the 128 points. -/
theorem isFirst_iff : ∀ t : Fin cfg0.N, isFirst (grid0.coords t) ↔ t.val % 32 = 0 :=
  (by decide +kernel : ∀ t : Fin grid0.N, isFirst (grid0.coords t) ↔ t.val % 32 = 0)
theorem isLater_iff : ∀ t : Fin cfg0.N, isLater (grid0.coords t) ↔ t.val % 32 ≠ 0 :=
  (by decide +kernel : ∀ t : Fin grid0.N, isLater (grid0.coords t) ↔ t.val % 32 ≠ 0)
theorem isLast_iff : ∀ t : Fin cfg0.N, isLast (grid0.coords t) ↔ t.val % 32 = 31 :=
  (by decide +kernel : ∀ t : Fin grid0.N, isLast (grid0.coords t) ↔ t.val % 32 = 31)

/-- The zero offsets of a rank-3 and of a rank-2 whole-buffer access. -/
theorem hz3 : (![0, 0, 0] : Fin 3 → Nat) = fun _ => 0 := by funext a; fin_cases a <;> rfl
theorem hz2 : (![0, 0] : Fin 2 → Nat) = fun _ => 0 := by funext a; fin_cases a <;> rfl

/-- A load of a whole buffer through the whole rectangle reads the buffer's contents. -/
theorem ld_whole {sp : Space} {S : Shape} {e : EltTy} (m : Memref sig .tc sp S e) (hm : m.IsWhole) {off : Fin S.rank → Nat}
    (hz : off = fun _ => 0) {inb : ∀ a, off a + S.size a ≤ S.size a} (X : S.Idx → Elt F e) :
    View.readAt (Elt F) m.view (Rect.unit off S.size inb).toLoadRect (hm.unread X) = X := by
  rw [View.readAt_eq_ld, hm.read_unread, View.ld_unit_zero hz]

/-- One store through the whole rectangle leaves its payload, whatever was there. -/
theorem st_whole {sp : Space} {S : Shape} {e : EltTy} (v : View sig .tc sp S e) (f : v.ty.Contents (Elt F)) {off : Fin S.rank → Nat}
    (hz : off = fun _ => 0) {inb : ∀ a, off a + S.size a ≤ S.size a} (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A load through the whole rectangle of what one store through it left reads that store's payload. -/
theorem ldst_whole {sp : Space} {S : Shape} {e : EltTy} (v : View sig .tc sp S e) {off : Fin S.rank → Nat}
    (hz : off = fun _ => 0) {inb : ∀ a, off a + S.size a ≤ S.size a} (w : S.Idx → Elt F e) :
    v.readCov [(⟨Rect.unit off S.size inb, w⟩ : View.Piece (Elt F) S e)] (Rect.unit off S.size inb).toLoadRect = w :=
  View.readCov_unit_zero v hz inb w

/-- FIRST TILE. From the two input blocks `x0`, `x1` in their buffers (the others at anything) the body leaves the first
    output's buffer at the tile's row minima and the scratch at the tile's column minima; the second output's buffer is
    handed back as it was. -/
theorem run_first (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : isFirst i) (h2 : ¬isLater i) (h3 : ¬isLast i)
    (x0 : Vec F S1x3x256 .f32) (x1 : Vec F S1x3x8192 .f32) (d2 : Vec F S1x1x256 .f32) (x3 : Vec F S1x1x8192 .f32) (ds : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare x3 ∗ owns (c : Thread nD τ) arg6 fullShare ds
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare x3 ∗ owns (c : Thread nD τ) arg6 fullShare (k0_pay5 x0 x1)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr; · ipureintro; exact harg5.read_unread _
    iexact H3
  iexists _; isplitr
  swap; · iexact HS
  ipureintro
  rw [st_whole _ _ hz2, ld_whole arg2 harg2 hz3, ld_whole arg3 harg3 hz3]

/-- A MIDDLE TILE. With the scratch at `xs`, the body leaves the first output's buffer at the tile's row minima and the
    scratch at the entrywise minimum of `xs` and the tile's column minima; the second output's buffer is handed back as
    it was. -/
theorem run_mid (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : ¬isFirst i) (h2 : isLater i) (h3 : ¬isLast i)
    (x0 : Vec F S1x3x256 .f32) (x1 : Vec F S1x3x8192 .f32) (d2 : Vec F S1x1x256 .f32) (x3 : Vec F S1x1x8192 .f32) (xs : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare x3 ∗ owns (c : Thread nD τ) arg6 fullShare (k0_pay6 x0 x1 xs)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr; · ipureintro; exact harg5.read_unread _
    iexact H3
  iexists _; isplitr
  swap; · iexact HS
  ipureintro
  rw [st_whole _ _ hz2, ld_whole arg2 harg2 hz3, ld_whole arg3 harg3 hz3, ld_whole arg6 harg6 hz2]

/-- THE LAST TILE. As a middle tile, and then the scratch's new contents are copied into the second output's buffer
    (which was at anything). -/
theorem run_last (c : Dev nD) (i : grid0.Coords)
    (arg2 : Memref sig .tc .vmem S1x3x256 .f32) (harg2 : arg2.IsWhole) (arg3 : Memref sig .tc .vmem S1x3x8192 .f32) (harg3 : arg3.IsWhole)
    (arg4 : Memref sig .tc .vmem S1x1x256 .f32) (harg4 : arg4.IsWhole) (arg5 : Memref sig .tc .vmem S1x1x8192 .f32) (harg5 : arg5.IsWhole)
    (arg6 : Memref sig .tc .vmem S1x8192 .f32) (harg6 : arg6.IsWhole)
    (h1 : ¬isFirst i) (h2 : isLater i) (h3 : isLast i)
    (x0 : Vec F S1x3x256 .f32) (x1 : Vec F S1x3x8192 .f32) (d2 : Vec F S1x1x256 .f32) (d3 : Vec F S1x1x8192 .f32) (xs : Vec F S1x8192 .f32)
    (E : Set ℕ) (K : PUnit → sProp 𝕄) :
    iprop(owns (c : Thread nD τ) arg2 fullShare x0 ∗ owns (c : Thread nD τ) arg3 fullShare x1 ∗ owns (c : Thread nD τ) arg4 fullShare d2
        ∗ owns (c : Thread nD τ) arg5 fullShare d3 ∗ owns (c : Thread nD τ) arg6 fullShare xs
        ∗ (iprop(owns (c : Thread nD τ) arg2 fullShare x0 ∗ owns (c : Thread nD τ) arg3 fullShare x1 ∗ owns (c : Thread nD τ) arg4 fullShare (k0_pay3 x0 x1)
        ∗ owns (c : Thread nD τ) arg5 fullShare (k0_pay1 (k0_pay6 x0 x1 xs)) ∗ owns (c : Thread nD τ) arg6 fullShare (k0_pay6 x0 x1 xs)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [st_whole _ _ hz3, ld_whole arg2 harg2 hz3, ld_whole arg3 harg3 hz3]
  isplitl [H3]
  · iexists _; isplitr
    swap; · iexact H3
    ipureintro
    sl_unfold_words
    rw [st_whole _ _ hz3, ldst_whole _ hz2, ld_whole arg2 harg2 hz3, ld_whole arg3 harg3 hz3, ld_whole arg6 harg6 hz2]
  iexists _; isplitr
  swap; · iexact HS
  ipureintro
  sl_unfold_words
  rw [st_whole _ _ hz2, ld_whole arg2 harg2 hz3, ld_whole arg3 harg3 hz3, ld_whole arg6 harg6 hz2]

end Cert.KernelIdeal.Body

end
-- ==== Proof.Data.lean ====
import proofs.«165203_j3032246911459_1_alg».proof.Proof.Gen.KernelIdeal.Frame
import proofs.«165203_j3032246911459_1_alg».proof.Proof.Runs
import Idealize.ShloMosaic.Lib.Pipeline.FrameSuffix

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The proof data of the one pipeline, the body obligation, and the run

After the body at grid point `t` (linear position in the 4 × 32 grid, tile = `t mod 32`):
the two inputs' buffers hold their blocks; the first output's buffer holds the tile's row minima of the distance
tile; the scratch holds the running column minimum of the batch so far (`scAt`: the tile's column minima at a
batch's first tile, the entrywise minimum with what the point before left at every later one); the second output's
buffer holds the copy of the scratch at a batch's last tile and is untouched elsewhere.
-/

/-- Each window's current staging memref at point `t`, as the pipeline passes it to the body, and its wholeness. -/
abbrev ms0 (t : Fin cfg0.N) : Memref sig .tc .vmem S1x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)
/-- The scratch operand: a whole scoped buffer of the kernel's own. -/
abbrev scM : Memref sig .tc .vmem S1x8192 .f32 := Memref.whole cc0_scratch0

/-- The two input blocks at point `t`, at their literal types: a [1, 3, 256] slab of the transposed pred cloud and the
    whole [1, 3, 8192] transposed target cloud of the batch. -/
abbrev xb0 (c : Dev nD) (t : Fin cfg0.N) : Vec F S1x3x256 .f32 := iblk m c 0 t
abbrev xb1 (c : Dev nD) (t : Fin cfg0.N) : Vec F S1x3x8192 .f32 := iblk m c 1 t

/-- THE RUNNING MINIMUM. What the scratch holds after the body at position `n`: at a batch's first tile the tile's column
    minima, at a later tile the entrywise minimum of those with what position `n - 1` left. -/
def scAt (c : Dev nD) : (n : ℕ) → n < cfg0.N → Vec F S1x8192 .f32
  | 0, hn => k0_pay5 (xb0 m c ⟨0, hn⟩) (xb1 m c ⟨0, hn⟩)
  | n + 1, hn =>
    if (n + 1) % 32 = 0 then k0_pay5 (xb0 m c ⟨n + 1, hn⟩) (xb1 m c ⟨n + 1, hn⟩)
    else k0_pay6 (xb0 m c ⟨n + 1, hn⟩) (xb1 m c ⟨n + 1, hn⟩) (scAt c n (Nat.lt_of_succ_lt hn))

/-- At a batch's first tile the scratch is reset. -/
theorem scAt_first (c : Dev nD) (t : Fin cfg0.N) (h : t.val % 32 = 0) :
    scAt m c t.val t.isLt = k0_pay5 (xb0 m c t) (xb1 m c t) := by
  obtain ⟨n, hn⟩ := t
  cases n with
  | zero => rfl
  | succ n => exact if_pos h

/-- At a later tile it is folded into. -/
theorem scAt_later (c : Dev nD) (t : Fin cfg0.N) (h : t.val % 32 ≠ 0) :
    scAt m c t.val t.isLt = k0_pay6 (xb0 m c t) (xb1 m c t) (scAt m c (t.val - 1) (Nat.lt_of_le_of_lt (Nat.sub_le _ _) t.isLt)) := by
  obtain ⟨n, hn⟩ := t
  cases n with
  | zero => exact absurd (Nat.zero_mod _) h
  | succ n => exact if_neg h

/-- The class's invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The region invariant before position `n`: before the first point the scratch at anything; afterwards the scratch at
    what the point before left (`scAt`); the generator register at some state throughout. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (scAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-- Whatever the position, the invariant holds the scratch at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA_eq]
  | succ n =>
    rw [PhiS_succ]
    iintro ⟨HS, Hg⟩
    isplitl [HS]
    · iexists _; iexact HS
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (xb0 m c t) (xb1 m c t)
    | ⟨3, _⟩ => k0_pay1 (scAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay3 (xb0 m c t) (xb1 m c t) := by dsimp only [dats]
theorem after3 (c : Dev nD) (t : Fin cfg0.N) : (dats m 0 c).after 3 t = k0_pay1 (scAt m c t.val t.isLt) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## Where the second output is idle -/

theorem idle3_of_not_last (t : Fin cfg0.N) (h : ¬isLast (grid0.coords t)) : cfg0.idle 3 (grid0.coords t) = true := by
  show (!(k0_cond3 (grid0.coords t) == 1#1)) = true
  simp only [Bool.not_eq_true', beq_eq_false_iff_ne, ne_eq]; exact h
theorem live3_of_last (t : Fin cfg0.N) (h : isLast (grid0.coords t)) : cfg0.idle 3 (grid0.coords t) = false := by
  show (!(k0_cond3 (grid0.coords t) == 1#1)) = false
  simp only [Bool.not_eq_false', beq_iff_eq]; exact h
theorem noFlush3_of_not_last (t : Fin cfg0.N) (h : ¬isLast (grid0.coords t)) : (cfg0.win 3).flush t = false := by
  cases hf : (cfg0.win 3).flush t with
  | false => rfl
  | true => exact absurd ((isLast_iff t).mpr ((flush0_3 t).mp hf)) h

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (k0_pay3 (xb0 m c t) (xb1 m c t)) := by
  rw [← after2 m c t]
theorem leaves3_last (c : Dev nD) (t : Fin cfg0.N) (h : isLast (grid0.coords t)) :
    (dats m 0 c).leavesExact 3 t = owns (c : Thread nD τ) (ms3 t) fullShare (k0_pay1 (scAt m c t.val t.isLt)) := by
  rw [← after3 m c t]; unfold Dat.leavesExact; rw [live3_of_last t h]
theorem leaves3_idle (c : Dev nD) (t : Fin cfg0.N) (h : ¬isLast (grid0.coords t)) :
    (dats m 0 c).leavesExact 3 t = iprop(∃ d, owns (c : Thread nD τ) (ms3 t) fullShare ((dats m 0 c).before 3 t d)) :=
  Dat.leavesExact_idle (dats m 0 c) 3 t (idle3_of_not_last t h) (noFlush3_of_not_last t h)

set_option maxHeartbeats 1600000 in
/-- The body at any point: the inputs' buffers hold their blocks; the tile coordinate says which case the point is in; the
    invariant hands the body the scratch at what the point before left (at anything before the very first point, which
    is a first tile and resets it) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc m c t]
  by_cases h0 : t.val % 32 = 0
  · -- a batch's first tile
    have hF : isFirst (grid0.coords t) := (isFirst_iff t).mpr h0
    have hL : ¬isLater (grid0.coords t) := fun h => (isLater_iff t).mp h h0
    have hE : ¬isLast (grid0.coords t) := fun h => by have := (isLast_iff t).mp h; omega
    rw [leaves3_idle m c t hE, scAt_first m c t h0]
    refine (sep_mono (PhiS_some m c _ _) .rfl).trans ?_
    iintro ⟨⟨⟨%ds, HS⟩, Hg⟩, Ho, ⟨%d0, H0⟩, ⟨%d1, H1⟩, ⟨%d2, H2⟩, ⟨%d3, H3⟩⟩
    iapply (run_first c (grid0.coords t) (ms0 t) (hs0 t) (ms1 t) (hs1 t) (ms2 t) (hs2 t) (ms3 t) (hs3 t) scM (Memref.isWhole_whole _) hF hL hE
      (xb0 m c t) (xb1 m c t) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hF : ¬isFirst (grid0.coords t) := fun h => h0 ((isFirst_iff t).mp h)
    have hL : isLater (grid0.coords t) := (isLater_iff t).mpr h0
    rw [PhiS_pos m c _ _ hz, scAt_later m c t h0]
    by_cases h31 : t.val % 32 = 31
    · -- a batch's last tile
      have hE : isLast (grid0.coords t) := (isLast_iff t).mpr h31
      rw [leaves3_last m c t hE, scAt_later m c t h0]
      iintro ⟨⟨HS, Hg⟩, Ho, ⟨%d0, H0⟩, ⟨%d1, H1⟩, ⟨%d2, H2⟩, ⟨%d3, H3⟩⟩
      iapply (run_last c (grid0.coords t) (ms0 t) (hs0 t) (ms1 t) (hs1 t) (ms2 t) (hs2 t) (ms3 t) (hs3 t) scM (Memref.isWhole_whole _) hF hL hE
        (xb0 m c t) (xb1 m c t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- a middle tile
      have hE : ¬isLast (grid0.coords t) := fun h => h31 ((isLast_iff t).mp h)
      rw [leaves3_idle m c t hE]
      iintro ⟨⟨HS, Hg⟩, Ho, ⟨%d0, H0⟩, ⟨%d1, H1⟩, ⟨%d2, H2⟩, ⟨%d3, H3⟩⟩
      iapply (run_mid c (grid0.coords t) (ms0 t) (hs0 t) (ms1 t) (hs1 t) (ms2 t) (hs2 t) (ms3 t) (hs3 t) scM (Memref.isWhole_whole _) hF hL hE
        (xb0 m c t) (xb1 m c t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run and the frame -/

set_option backward.isDefEq.respectTransparency.types false in
/-- Every weakly fair execution of @main terminates, and every final state has each array of the pipeline at what the
    library computes from the proof data and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs, faults nowhere, and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Blocks.lean ====
import proofs.«165203_j3032246911459_1_alg».proof.Proof.Gen.KernelIdeal.Frame
import proofs.«165203_j3032246911459_1_alg».proof.Proof.Data
import Idealize.ShloMosaic.Lib.Pipeline.Value
import Idealize.ShloMosaic.Lib.ValueIdx
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-!
# The input blocks as entries of the two point clouds

The grid's 128 points run batch-major: point `t` is tile `t mod 32` of batch `t / 32`. The kernel reads the clouds
TRANSPOSED to [4, 3, 8192] (batch, coordinate, point). At point `t` the first input block is the [1, 3, 256] slab of the
transposed pred cloud at batch `t / 32` and points `256 · (t mod 32) … + 255`; the second is the whole [1, 3, 8192]
transposed target cloud of that batch. So entry (0, d, r) of the first block is coordinate `d` of pred point
`256 · (t mod 32) + r`, and entry (0, d, q) of the second is coordinate `d` of target point `q`.
-/

/-- The batch of grid point `t`. -/
def bOf (t : Fin cfg0.N) : Fin 4 := ⟨t.val / 32, by have := t.isLt; have hN : cfg0.N = 128 := N_0; omega⟩
/-- Row `r` of the tile of grid point `t`, as a point of the cloud. -/
def pOf (t : Fin cfg0.N) (r : Fin 256) : Fin 8192 := ⟨t.val % 32 * 256 + r.val, by have := r.isLt; omega⟩

@[simp] theorem bOf_val (t : Fin cfg0.N) : (bOf t).val = t.val / 32 := rfl
@[simp] theorem pOf_val (t : Fin cfg0.N) (r : Fin 256) : (pOf t r).val = t.val % 32 * 256 + r.val := rfl

/-- The four windows' block indices at point `t`, decided over the grid. -/
theorem idx_w0 : ∀ t : Fin cfg0.N, win0_0.index t 0 = t.val / 32 ∧ win0_0.index t 1 = 0 ∧ win0_0.index t 2 = t.val % 32 :=
  (by decide +kernel : ∀ t : Fin grid0.N, win0_0.index t 0 = t.val / 32 ∧ win0_0.index t 1 = 0 ∧ win0_0.index t 2 = t.val % 32)
theorem idx_w1 : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)
theorem idx_w2 : ∀ t : Fin cfg0.N, win0_2.index t 0 = t.val / 32 ∧ win0_2.index t 1 = 0 ∧ win0_2.index t 2 = t.val % 32 :=
  (by decide +kernel : ∀ t : Fin grid0.N, win0_2.index t 0 = t.val / 32 ∧ win0_2.index t 1 = 0 ∧ win0_2.index t 2 = t.val % 32)
theorem idx_w3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- The region finds the transposed pred cloud in the first window's array, -/
theorem V_v0 (c : Dev nD) :
    (V m c main_v0 : S4x3x8192.Idx → Elt F .f32)
      = transpose S4x3x8192 [0, 2, 1] (m ((c : Thread nD τ).loc main_arg0) : S4x8192x3.Idx → Elt F .f32) transposes_S4x8192x3_S4x3x8192_0_2_1 := by
  show StableHlo.after hostOps0 (fun b => m (c, b)) (Proc.devRef .tc main_v0) = _
  after_results
/-- and the transposed target cloud in the second's. -/
theorem V_v1 (c : Dev nD) :
    (V m c main_v1 : S4x3x8192.Idx → Elt F .f32)
      = transpose S4x3x8192 [0, 2, 1] (m ((c : Thread nD τ).loc main_arg1) : S4x8192x3.Idx → Elt F .f32) transposes_S4x8192x3_S4x3x8192_0_2_1 := by
  show StableHlo.after hostOps0 (fun b => m (c, b)) (Proc.devRef .tc main_v1) = _
  after_results

/-- The transposed cloud at (b, d, p) is the cloud at (b, p, d). -/
theorem transposed_apply (X : S4x8192x3.Idx → Elt F .f32) (b : Fin 4) (d : Fin 3) (p : Fin 8192) :
    transpose S4x3x8192 [0, 2, 1] X transposes_S4x8192x3_S4x3x8192_0_2_1 (ix3 b d p) = X (ix3 b p d) :=
  transpose_apply _ X _ (ix3 b d p) (ix3 b p d) (fun a => by
    match a with
    | ⟨0, _⟩ => rfl
    | ⟨1, _⟩ => rfl
    | ⟨2, _⟩ => rfl)

/-- Entry (0, d, r) of the pred block at point `t`: coordinate `d` of pred point `256 · (t mod 32) + r` of batch `t / 32`. -/
theorem xb0_apply (c : Dev nD) (t : Fin cfg0.N) (d : Fin 3) (r : Fin 256) :
    xb0 m c t (ix3 (0 : Fin 1) d r) = (m ((c : Thread nD τ).loc main_arg0) : S4x8192x3.Idx → Elt F .f32) (ix3 (bOf t) (pOf t r) d) := by
  have hi := idx_w0 t
  rw [← transposed_apply (m ((c : Thread nD τ).loc main_arg0)) (bOf t) d (pOf t r), ← V_v0 m c]
  show iblk m c 0 t (ix3 (0 : Fin 1) d r) = _
  unfold iblk
  rw [View.read_apply]
  show V m c main_v0 _ = V m c main_v0 _
  congr 1
  funext a
  apply Fin.ext
  match a with
  | ⟨0, _⟩ => show win0_0.index t 0 * 1 + 1 * 0 = t.val / 32; rw [hi.1]; omega
  | ⟨1, _⟩ => show win0_0.index t 1 * 3 + 1 * d.val = d.val; rw [hi.2.1]; omega
  | ⟨2, _⟩ => show win0_0.index t 2 * 256 + 1 * r.val = t.val % 32 * 256 + r.val; rw [hi.2.2]; omega

/-- Entry (0, d, q) of the target block at point `t`: coordinate `d` of target point `q` of batch `t / 32`. -/
theorem xb1_apply (c : Dev nD) (t : Fin cfg0.N) (d : Fin 3) (q : Fin 8192) :
    xb1 m c t (ix3 (0 : Fin 1) d q) = (m ((c : Thread nD τ).loc main_arg1) : S4x8192x3.Idx → Elt F .f32) (ix3 (bOf t) q d) := by
  have hi := idx_w1 t
  rw [← transposed_apply (m ((c : Thread nD τ).loc main_arg1)) (bOf t) d q, ← V_v1 m c]
  show iblk m c 1 t (ix3 (0 : Fin 1) d q) = _
  unfold iblk
  rw [View.read_apply]
  show V m c main_v1 _ = V m c main_v1 _
  congr 1
  funext a
  apply Fin.ext
  match a with
  | ⟨0, _⟩ => show win0_1.index t 0 * 1 + 1 * 0 = t.val / 32; rw [hi.1]; omega
  | ⟨1, _⟩ => show win0_1.index t 1 * 3 + 1 * d.val = d.val; rw [hi.2.1]; omega
  | ⟨2, _⟩ => show win0_1.index t 2 * 8192 + 1 * q.val = q.val; rw [hi.2.2]; omega

end Cert.KernelIdeal.Body

end
-- ==== Proof.Spec.lean ====
import Idealize.ShloMosaic.PureOps.Ideal
import Idealize.ShloMosaic.Lib.ValueIdx

/-!
# The Chamfer distance's two nearest-neighbour arrays, as functions of the two point clouds

For point clouds `P, T : [4, 8192, 3]` (batch, point, coordinate) over the extended reals:

* `sqn X b p = ∑ d, X[b,p,d]²` — a point's squared norm;
* `cross P T b p q = ∑ d, P[b,p,d] · T[b,q,d]` — the inner product of a point of `P` with one of `T`;
* `dist P T b p q = (sqn P b p + sqn T b q) − 2 · cross P T b p q` — the squared distance by the expanded square,
  with exactly this grouping (both programs group it so, so no law of the extended reals is needed to join them);
* `dpt P T b p = min over q of dist` and `dtp P T b q = min over p of dist` — each point's distance to the nearest
  point of the other cloud. A minimum over a finite index type is `Finset.inf` (the fold of `min` from `+∞`).
-/

noncomputable section

namespace Chamfer

open Idealize.ShloMosaic Idealize.ShloMosaic.ValueIdx

/-- The shape of a point cloud: 4 batches of 8192 points with 3 coordinates. -/
abbrev Cloud : Shape := ⟨3, ![4, 8192, 3]⟩

/-- The literal `2.0` both programs multiply the cross term by, kept as its word: the same word stands on both sides, so
    its value is never needed. -/
def two : EReal := Ideal.ofBits .f32 0x40000000#32

/-- Coordinate `d` of point `p` of batch `b`. -/
def ent (X : Cloud.Idx → EReal) (b : Fin 4) (p : Fin 8192) (d : Fin 3) : EReal := X (ix3 b p d)

/-- The squared norm of point `p` of batch `b`. -/
def sqn (X : Cloud.Idx → EReal) (b : Fin 4) (p : Fin 8192) : EReal := ∑ d : Fin 3, ent X b p d * ent X b p d

/-- The inner product of point `p` of `P` with point `q` of `T`, in batch `b`. -/
def cross (P T : Cloud.Idx → EReal) (b : Fin 4) (p q : Fin 8192) : EReal := ∑ d : Fin 3, ent P b p d * ent T b q d

/-- The squared distance from point `p` of `P` to point `q` of `T`, by the expanded square. -/
def dist (P T : Cloud.Idx → EReal) (b : Fin 4) (p q : Fin 8192) : EReal :=
  (sqn P b p + sqn T b q) - two * cross P T b p q

/-- The squared distance from point `p` of `P` to the nearest point of `T`. -/
def dpt (P T : Cloud.Idx → EReal) (b : Fin 4) (p : Fin 8192) : EReal := Finset.univ.inf fun q : Fin 8192 => dist P T b p q

/-- The squared distance from point `q` of `T` to the nearest point of `P`. -/
def dtp (P T : Cloud.Idx → EReal) (b : Fin 4) (q : Fin 8192) : EReal := Finset.univ.inf fun p : Fin 8192 => dist P T b p q

/-- `dpt` as an array over `[4, 8192]`. -/
def dptArr (P T : Cloud.Idx → EReal) : (⟨2, ![4, 8192]⟩ : Shape).Idx → EReal := fun i => dpt P T (i 0) (i 1)

/-- `dtp` as an array over `[4, 8192]`. -/
def dtpArr (P T : Cloud.Idx → EReal) : (⟨2, ![4, 8192]⟩ : Shape).Idx → EReal := fun i => dtp P T (i 0) (i 1)

theorem dptArr_ix2 (P T : Cloud.Idx → EReal) (b : Fin 4) (p : Fin 8192) : dptArr P T (ix2 b p) = dpt P T b p := rfl
theorem dtpArr_ix2 (P T : Cloud.Idx → EReal) (b : Fin 4) (q : Fin 8192) : dtpArr P T (ix2 b q) = dtp P T b q := rfl

/-- `+∞` as the word both programs start their minima from. -/
theorem ofBits_inf : Ideal.ofBits .f32 0x7F800000#32 = (⊤ : EReal) := by simp [Ideal.ofBits, Ideal.ieee]

/-- The fold of `min` from `+∞` over a finite index type is the infimum. -/
theorem fold_min_top {ι : Type} [Fintype ι] (f : ι → EReal) : (Finset.univ : Finset ι).fold min (⊤ : EReal) f = Finset.univ.inf f := rfl

end Chamfer

end
-- ==== Proof.PaySide.lean ====
import proofs.«165203_j3032246911459_1_alg».proof.Proof.Gen.KernelIdeal.Skeleton
import proofs.«165203_j3032246911459_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The kernel body's stored values read at an index, over the extended reals. -/

noncomputable section

namespace Cert.KernelIdeal.Pay

open Idealize.ShloMosaic Idealize.ShloMosaic.ValueIdx Cert.KernelIdeal Cert.KernelIdeal.Gen

/-! ## Layout operations with a trailing unit axis, read at coordinates -/

/-- A column `[a, 1]` broadcast to `[a, b]` reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A minimum over one axis -/

/-- A `minimumf` reduction over one axis is, at each kept index, the fold of `min` from the accumulator's value over that
    axis's coordinates. -/
private theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## A point's squared norm, from its block -/

/-- The sum over the coordinate axis of the entrywise square of a `[1, 3, n]` block, at point `p`. -/
private theorem sqsum_apply {n : ℕ} (x : FVec Ideal ⟨3, ![1, 3, n]⟩ .f32)
    (hc : (⟨3, ![1, 3, n]⟩ : Shape).ShapeCasts ⟨2, ![3, n]⟩) (hr : (⟨2, ![3, n]⟩ : Shape).Reduces [0] ⟨1, ![n]⟩)
    (hφ : FKind.Formats .f32) (hacc : (0x00000000#32 : BitVec 32) = FKind.add.neutral .f32 hφ) (p : Fin n) :
    multiReduction (F := Ideal) .add [0] ⟨1, ![n]⟩
        (mulf (shapeCast ⟨2, ![3, n]⟩ x hc) (shapeCast ⟨2, ![3, n]⟩ x hc)) 0x00000000#32 hr hφ hacc (ix1 p)
      = ∑ d : Fin 3, x (ix3 (0 : Fin 1) d p) * x (ix3 (0 : Fin 1) d p) := by
  refine (Ideal.multiReduction_add_single _ _ hr hφ hacc (ix1 p)).trans ?_
  show ∑ d : Fin 3, mulf (shapeCast ⟨2, ![3, n]⟩ x hc) (shapeCast ⟨2, ![3, n]⟩ x hc) (hr.lift (ix1 p) d) = _
  refine Finset.sum_congr rfl fun d _ => ?_
  have e : hr.lift (ix1 p) d = ix2 d p :=
    funext fun a => Fin.ext (by match a with | ⟨0, _⟩ => rfl | ⟨1, _⟩ => rfl)
  rw [e, mulf_apply, shapeCast_1ab_ab_apply]

/-! ## The product of the two blocks, contracted over the coordinate axis

The contraction's operand indices at result index `i` and contraction position `k`: on both operands axis 0 is the
contracted one and reads `k`; axis 1 is kept and reads `i`'s row on the left operand, `i`'s column on the right. -/

private theorem lhs_dot_0 (i : S256x8192.Idx) (k : dot_S3x256_S3x8192_S256x8192_0_0_1_1_n_n.contr.Idx) :
    (dot_S3x256_S3x8192_S256x8192_0_0_1_1_n_n.lhsIdx i k 0).val = (k ⟨0, by decide⟩).val :=
  dot_S3x256_S3x8192_S256x8192_0_0_1_1_n_n.lhsIdx_val_of_single rfl i k
private theorem lhs_dot_1 (i : S256x8192.Idx) (k : dot_S3x256_S3x8192_S256x8192_0_0_1_1_n_n.contr.Idx) :
    (dot_S3x256_S3x8192_S256x8192_0_0_1_1_n_n.lhsIdx i k 1).val = (i 0).val := by
  unfold DotDims.lhsIdx
  rw [dif_neg (show ¬(1 : Fin S3x256.rank) ∈ dot_S3x256_S3x8192_S256x8192_0_0_1_1_n_n.lhsBatch by decide), dif_pos (show (1 : Fin S3x256.rank) ∈ dot_S3x256_S3x8192_S256x8192_0_0_1_1_n_n.lhsNonContracting by decide)]
  rfl
private theorem rhs_dot_0 (i : S256x8192.Idx) (k : dot_S3x256_S3x8192_S256x8192_0_0_1_1_n_n.contr.Idx) :
    (dot_S3x256_S3x8192_S256x8192_0_0_1_1_n_n.rhsIdx i k 0).val = (k ⟨0, by decide⟩).val :=
  dot_S3x256_S3x8192_S256x8192_0_0_1_1_n_n.rhsIdx_val_of_single rfl i k
private theorem rhs_dot_1 (i : S256x8192.Idx) (k : dot_S3x256_S3x8192_S256x8192_0_0_1_1_n_n.contr.Idx) :
    (dot_S3x256_S3x8192_S256x8192_0_0_1_1_n_n.rhsIdx i k 1).val = (i 1).val := by
  unfold DotDims.rhsIdx
  rw [dif_neg (show ¬(1 : Fin S3x8192.rank) ∈ dot_S3x256_S3x8192_S256x8192_0_0_1_1_n_n.rhsBatch by decide), dif_pos (show (1 : Fin S3x8192.rank) ∈ dot_S3x256_S3x8192_S256x8192_0_0_1_1_n_n.rhsNonContracting by decide)]
  rfl

/-- The product into the zero accumulator, at `(r, q)`: the sum over the coordinate axis of column `r` of the left block
    times column `q` of the right one. -/
private theorem matmul_apply_pts (a : FVec Ideal S3x256 .bf16) (b : FVec Ideal S3x8192 .bf16) (r : Fin 256) (q : Fin 8192) :
    matmul (F := Ideal) dot_S3x256_S3x8192_S256x8192_0_0_1_1_n_n none a b (constant (F := Ideal) S256x8192 .f32 0x00000000#32) (ix2 r q)
      = ∑ d : Fin 3, a (ix2 d r) * b (ix2 d q) := by
  simp only [matmul]
  rw [Ideal.matmul_constant_zero_apply, ← Equiv.sum_comp (ValueIdx.contrEquiv1 dot_S3x256_S3x8192_S256x8192_0_0_1_1_n_n 3 rfl rfl).symm]
  refine Finset.sum_congr rfl fun k _ => ?_
  have hk := ValueIdx.contrEquiv1_symm_val dot_S3x256_S3x8192_S256x8192_0_0_1_1_n_n 3 rfl rfl k
  have el : dot_S3x256_S3x8192_S256x8192_0_0_1_1_n_n.lhsIdx (ix2 r q) ((ValueIdx.contrEquiv1 dot_S3x256_S3x8192_S256x8192_0_0_1_1_n_n 3 rfl rfl).symm k) = ix2 k r := funext fun a => Fin.ext (by
    match a with
    | ⟨0, _⟩ => exact (lhs_dot_0 _ _).trans hk
    | ⟨1, _⟩ => exact lhs_dot_1 _ _)
  have er : dot_S3x256_S3x8192_S256x8192_0_0_1_1_n_n.rhsIdx (ix2 r q) ((ValueIdx.contrEquiv1 dot_S3x256_S3x8192_S256x8192_0_0_1_1_n_n 3 rfl rfl).symm k) = ix2 k q := funext fun a => Fin.ext (by
    match a with
    | ⟨0, _⟩ => exact (rhs_dot_0 _ _).trans hk
    | ⟨1, _⟩ => exact rhs_dot_1 _ _)
  rw [el, er]

/-- The distance tile at (row r of the pred block, column q of the target block). -/
theorem pay2_apply (x0 : Vec Ideal S1x3x256 .f32) (x1 : Vec Ideal S1x3x8192 .f32) (r : Fin 256) (q : Fin 8192) :
    k0_pay2 (F := Ideal) x0 x1 (ix2 r q)
      = ((∑ d : Fin 3, x0 (ix3 (0 : Fin 1) d r) * x0 (ix3 (0 : Fin 1) d r)) + (∑ d : Fin 3, x1 (ix3 (0 : Fin 1) d q) * x1 (ix3 (0 : Fin 1) d q)))
        - Chamfer.two * ∑ d : Fin 3, x0 (ix3 (0 : Fin 1) d r) * x1 (ix3 (0 : Fin 1) d q) := by
  unfold k0_pay2
  refine congrArg₂ (fun a b : EReal => a - b) (congrArg₂ (fun a b : EReal => a + b) ?_ ?_) (congrArg₂ (fun a b : EReal => a * b) ?_ ?_)
  · refine (broadcastTo_a1_ab_apply _ _ r q).trans ?_
    refine (transpose_ix2_apply _ _ r (0 : Fin 1)).trans ?_
    refine (shapeCast_a_1a_apply _ _ (0 : Fin 1) r).trans ?_
    exact sqsum_apply x0 _ _ _ _ r
  · refine (broadcastTo_1b_ab_apply _ _ r q).trans ?_
    refine (shapeCast_a_1a_apply _ _ (0 : Fin 1) q).trans ?_
    exact sqsum_apply x1 _ _ _ _ q
  · unfold Chamfer.two; rfl
  · refine (matmul_apply_pts _ _ r q).trans ?_
    refine Finset.sum_congr rfl fun d _ => ?_
    rw [truncf_apply, truncf_apply, shapeCast_1ab_ab_apply, shapeCast_1ab_ab_apply]

/-- The row minima of the tile, as stored into the first output's block. -/
theorem pay3_apply (x0 : Vec Ideal S1x3x256 .f32) (x1 : Vec Ideal S1x3x8192 .f32) (r : Fin 256) :
    k0_pay3 (F := Ideal) x0 x1 (ix3 (0 : Fin 1) (0 : Fin 1) r) = Finset.univ.inf fun q : Fin 8192 => k0_pay2 (F := Ideal) x0 x1 (ix2 r q) := by
  unfold k0_pay3
  refine (shapeCast_ab_1ab_apply _ _ (0 : Fin 1) (0 : Fin 1) r).trans ?_
  refine (transpose_ix2_apply _ _ (0 : Fin 1) r).trans ?_
  refine (shapeCast_a_a1_apply _ _ r (0 : Fin 1)).trans ?_
  refine (multiReduction_minimumf_single (k0_pay2 (F := Ideal) x0 x1) _ reduces_S256x8192_S256 _ _ (ix1 r)).trans ?_
  show (Finset.univ : Finset (Fin 8192)).fold min (Ideal.ofBits .f32 0x7F800000#32) _ = _
  rw [Chamfer.ofBits_inf]
  refine (Chamfer.fold_min_top (ι := Fin 8192) _).trans ?_
  refine congrArg (Finset.univ.inf) (funext fun q => ?_)
  exact congrArg (k0_pay2 (F := Ideal) x0 x1) (funext fun a => Fin.ext (by match a with | ⟨0, _⟩ => rfl | ⟨1, _⟩ => rfl))

/-- The column minima of the tile. -/
theorem pay4_apply (x0 : Vec Ideal S1x3x256 .f32) (x1 : Vec Ideal S1x3x8192 .f32) (q : Fin 8192) :
    k0_pay4 (F := Ideal) x0 x1 (ix2 (0 : Fin 1) q) = Finset.univ.inf fun r : Fin 256 => k0_pay2 (F := Ideal) x0 x1 (ix2 r q) := by
  unfold k0_pay4
  refine (shapeCast_a_1a_apply _ _ (0 : Fin 1) q).trans ?_
  refine (multiReduction_minimumf_single (k0_pay2 (F := Ideal) x0 x1) _ reduces_S256x8192_S8192 _ _ (ix1 q)).trans ?_
  show (Finset.univ : Finset (Fin 256)).fold min (Ideal.ofBits .f32 0x7F800000#32) _ = _
  rw [Chamfer.ofBits_inf]
  refine (Chamfer.fold_min_top (ι := Fin 256) _).trans ?_
  refine congrArg (Finset.univ.inf) (funext fun r => ?_)
  exact congrArg (k0_pay2 (F := Ideal) x0 x1) (funext fun a => Fin.ext (by match a with | ⟨0, _⟩ => rfl | ⟨1, _⟩ => rfl))

/-- What the first tile of a batch stores into the running minimum: the tile's column minima. -/
theorem pay5_eq (x0 : Vec Ideal S1x3x256 .f32) (x1 : Vec Ideal S1x3x8192 .f32) :
    k0_pay5 (F := Ideal) x0 x1 = k0_pay4 (F := Ideal) x0 x1 := by
  unfold k0_pay5
  exact shapeCast_self _ _

/-- What a later tile stores: the entrywise minimum of what was there and the tile's column minima. -/
theorem pay6_apply (x0 : Vec Ideal S1x3x256 .f32) (x1 : Vec Ideal S1x3x8192 .f32) (s : Vec Ideal S1x8192 .f32) (q : Fin 8192) :
    k0_pay6 (F := Ideal) x0 x1 s (ix2 (0 : Fin 1) q) = min (s (ix2 (0 : Fin 1) q)) (k0_pay4 (F := Ideal) x0 x1 (ix2 (0 : Fin 1) q)) := by
  unfold k0_pay6
  rw [shapeCast_self]
  rfl

/-- The running minimum copied into the second output's block. -/
theorem pay1_apply (s : Vec Ideal S1x8192 .f32) (q : Fin 8192) :
    k0_pay1 (F := Ideal) s (ix3 (0 : Fin 1) (0 : Fin 1) q) = s (ix2 (0 : Fin 1) q) := by
  unfold k0_pay1
  exact shapeCast_ab_1ab_apply _ _ (0 : Fin 1) (0 : Fin 1) q

end Cert.KernelIdeal.Pay

end
-- ==== Proof.Tile.lean ====
import proofs.«165203_j3032246911459_1_alg».proof.Proof.Blocks
import proofs.«165203_j3032246911459_1_alg».proof.Proof.PaySide
import proofs.«165203_j3032246911459_1_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-!
# One tile of the distance matrix, in terms of the two clouds

At grid point `t` (batch `t / 32`, tile `t mod 32`) the body's distance tile at (r, q) is the squared distance from pred
point `256 · (t mod 32) + r` to target point `q`; its row minima are those pred points' distances to their nearest
target point; its column minima are, for each target point, the least distance to the tile's 256 pred points.
-/

/-- The pred cloud and the target cloud on core `c`, as launched. -/
abbrev Pc (c : Dev nD) : Chamfer.Cloud.Idx → EReal := m ((c : Thread nD τ).loc main_arg0)
abbrev Tc (c : Dev nD) : Chamfer.Cloud.Idx → EReal := m ((c : Thread nD τ).loc main_arg1)

/-- The distance tile of point `t` at (r, q). -/
theorem tile_dist (c : Dev nD) (t : Fin cfg0.N) (r : Fin 256) (q : Fin 8192) :
    k0_pay2 (F := Ideal) (xb0 m c t) (xb1 m c t) (ix2 r q) = Chamfer.dist (Pc m c) (Tc m c) (bOf t) (pOf t r) q := by
  rw [Pay.pay2_apply]
  simp only [xb0_apply, xb1_apply]
  rfl

/-- Its row minima: each pred point of the tile to its nearest target point. -/
theorem tile_rowmin (c : Dev nD) (t : Fin cfg0.N) (r : Fin 256) :
    k0_pay3 (F := Ideal) (xb0 m c t) (xb1 m c t) (ix3 (0 : Fin 1) (0 : Fin 1) r) = Chamfer.dpt (Pc m c) (Tc m c) (bOf t) (pOf t r) := by
  rw [Pay.pay3_apply]
  exact Finset.inf_congr rfl fun q _ => tile_dist m c t r q

/-- Its column minima: each target point to the nearest of the tile's 256 pred points. -/
theorem tile_colmin (c : Dev nD) (t : Fin cfg0.N) (q : Fin 8192) :
    k0_pay4 (F := Ideal) (xb0 m c t) (xb1 m c t) (ix2 (0 : Fin 1) q)
      = Finset.univ.inf fun r : Fin 256 => Chamfer.dist (Pc m c) (Tc m c) (bOf t) (pOf t r) q := by
  rw [Pay.pay4_apply]
  exact Finset.inf_congr rfl fun r _ => tile_dist m c t r q

end Cert.KernelIdeal.Body

end
-- ==== Proof.RunMin.lean ====
import proofs.«165203_j3032246911459_1_alg».proof.Proof.Tile

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-!
# The running column minimum

After the body at grid point `t` (batch `t / 32`, tile `n = t mod 32`) the scratch holds, for each target point `q`, the
least squared distance from `q` to the pred points of tiles `0 … n` of the batch, that is to the pred points below
`256 · (n + 1)`. At a batch's last tile that is every pred point: the target point's distance to its nearest pred point.
-/

/-- One tile's column minimum by its universal property: a bound lies below it exactly when it lies below the distance
    from `q` to each of the tile's pred points, the points `256 · n … 256 · n + 255` of the batch. -/
private theorem tile_le_iff (c : Dev nD) (t : Fin cfg0.N) (q : Fin 8192) (x : EReal) :
    x ≤ k0_pay4 (F := Ideal) (xb0 m c t) (xb1 m c t) (ix2 (0 : Fin 1) q)
      ↔ ∀ p : Fin 8192, t.val % 32 * 256 ≤ p.val → p.val < (t.val % 32 + 1) * 256 →
          x ≤ Chamfer.dist (Pc m c) (Tc m c) (bOf t) p q := by
  rw [tile_colmin, Finset.le_inf_iff]
  constructor
  · intro H p h1 h2
    -- a pred point of the tile is row `p − 256 · n` of it
    have hr : p.val - t.val % 32 * 256 < 256 := by omega
    have hp : pOf t ⟨p.val - t.val % 32 * 256, hr⟩ = p := Fin.ext (by simp only [pOf_val]; omega)
    have := H ⟨p.val - t.val % 32 * 256, hr⟩ (Finset.mem_univ _)
    rwa [hp] at this
  · intro H r _
    have := r.isLt
    exact H (pOf t r) (by simp only [pOf_val]; omega) (by simp only [pOf_val]; omega)

/-- The universal property of the running minimum at position `n`, by induction along the grid: a batch's first tile
    starts it from the tile's column minima, every later tile takes the minimum with what the tile before left, and
    the tile before is in the same batch and covers the pred points below `256 · (n mod 32)`. -/
private theorem scAt_le_iff_aux (c : Dev nD) (q : Fin 8192) (x : EReal) :
    ∀ (n : ℕ) (hn : n < cfg0.N), x ≤ scAt m c n hn (ix2 (0 : Fin 1) q)
      ↔ ∀ p : Fin 8192, p.val < (n % 32 + 1) * 256 →
          x ≤ Chamfer.dist (Pc m c) (Tc m c) (bOf ⟨n, hn⟩) p q := by
  intro n
  induction n using Nat.strong_induction_on with
  | _ n ih =>
    intro hn
    by_cases h0 : n % 32 = 0
    · -- a batch's first tile: the pred points below 256
      have e : scAt m c n hn = k0_pay5 (xb0 m c ⟨n, hn⟩) (xb1 m c ⟨n, hn⟩) := scAt_first m c ⟨n, hn⟩ h0
      rw [e, Pay.pay5_eq, tile_le_iff]
      constructor
      · intro H p hp; exact H p (by show n % 32 * 256 ≤ p.val; omega) hp
      · intro H p _ hp; exact H p hp
    · -- a later tile: the pred points the tile before covered, and this tile's
      have hn' : n - 1 < cfg0.N := by omega
      have e : scAt m c n hn = k0_pay6 (xb0 m c ⟨n, hn⟩) (xb1 m c ⟨n, hn⟩) (scAt m c (n - 1) hn') :=
        scAt_later m c ⟨n, hn⟩ h0
      have hb : bOf ⟨n - 1, hn'⟩ = bOf ⟨n, hn⟩ := Fin.ext (by simp only [bOf_val]; omega)
      rw [e, Pay.pay6_apply, le_min_iff, ih (n - 1) (by omega) hn', hb, tile_le_iff]
      constructor
      · rintro ⟨H1, H2⟩ p hp
        by_cases hlt : p.val < n % 32 * 256
        · exact H1 p (by omega)
        · exact H2 p (by show n % 32 * 256 ≤ p.val; omega) hp
      · intro H
        exact ⟨fun p hp => H p (by omega), fun p _ hp => H p hp⟩

/-- The running minimum after point `t`, by its universal property: a bound lies below it exactly when it lies below the
    distance from `q` to every pred point of the batch's tiles so far. -/
theorem scAt_le_iff (c : Dev nD) (t : Fin cfg0.N) (q : Fin 8192) (x : EReal) :
    x ≤ scAt m c t.val t.isLt (ix2 (0 : Fin 1) q)
      ↔ ∀ p : Fin 8192, p.val < (t.val % 32 + 1) * 256 → x ≤ Chamfer.dist (Pc m c) (Tc m c) (bOf t) p q :=
  scAt_le_iff_aux m c q x t.val t.isLt

/-- After a batch's last tile the running minimum is each target point's distance to its nearest pred point. -/
theorem scAt_last (c : Dev nD) (t : Fin cfg0.N) (h : t.val % 32 = 31) (q : Fin 8192) :
    scAt m c t.val t.isLt (ix2 (0 : Fin 1) q) = Chamfer.dtp (Pc m c) (Tc m c) (bOf t) q := by
  -- both sides have the same lower bounds: with 32 tiles done the bound 256 · 32 = 8192 admits every pred point
  refine eq_of_forall_le_iff (α := EReal) fun x => ?_
  rw [scAt_le_iff, Chamfer.dtp, Finset.le_inf_iff]
  constructor
  · intro H p _
    have := p.isLt
    exact H p (by omega)
  · intro H p _
    exact H p (Finset.mem_univ _)

end Cert.KernelIdeal.Body

end
-- ==== Proof.Arrays.lean ====
import proofs.«165203_j3032246911459_1_alg».proof.Proof.RunMin

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-!
# The two result arrays after the run

The first output window is written back at every grid point; its blocks [1, 1, 256] tile the array [4, 1, 8192], block `t`
at batch `t / 32`, points `256 · (t mod 32) …`. The second is written back at each batch's last tile only; its blocks
[1, 1, 8192] are the four batch rows. So after the run the first array holds, at (b, 0, p), pred point `p`'s distance to its
nearest target point, and the second, at (b, 0, q), target point `q`'s distance to its nearest pred point.
-/

/-- Nearest-target distances laid out as the first result array. -/
def G2 (c : Dev nD) : Buf (Elt Ideal) ((c : Thread nD τ).loc main_v2_0) :=
  fun i : S4x1x8192.Idx => Chamfer.dpt (Pc m c) (Tc m c) ⟨(i 0).val, (i 0).isLt⟩ ⟨(i 2).val, (i 2).isLt⟩
/-- Nearest-pred distances laid out as the second result array. -/
def G3 (c : Dev nD) : Buf (Elt Ideal) ((c : Thread nD τ).loc main_v2_1) :=
  fun i : S4x1x8192.Idx => Chamfer.dtp (Pc m c) (Tc m c) ⟨(i 0).val, (i 0).isLt⟩ ⟨(i 2).val, (i 2).isLt⟩

theorem G2_ix3 (c : Dev nD) (b : Fin 4) (p : Fin 8192) : G2 m c (ix3 b (0 : Fin 1) p) = Chamfer.dpt (Pc m c) (Tc m c) b p := rfl
theorem G3_ix3 (c : Dev nD) (b : Fin 4) (q : Fin 8192) : G3 m c (ix3 b (0 : Fin 1) q) = Chamfer.dtp (Pc m c) (Tc m c) b q := rfl

/-! ## The first result array: every point writes its block back -/

/-- What point `t` leaves for the first output, at block index `y`, is `G2` at the array index under `y`: row `r` of the
    tile is pred point `256 · (t mod 32) + r` of batch `t / 32`. -/
private theorem rowmin_at (c : Dev nD) (t : Fin cfg0.N) (y : S1x1x256.Idx) :
    k0_pay3 (F := Ideal) (xb0 m c t) (xb1 m c t) y = G2 m c (((cfg0.win 2).blk t).view.emb y) := by
  obtain ⟨u, v, r, rfl⟩ : ∃ (u : Fin 1) (v : Fin 1) (r : Fin 256), y = ix3 u v r := ⟨y 0, y 1, y 2, eq_ix3 y⟩
  obtain rfl : u = 0 := Subsingleton.elim _ _
  obtain rfl : v = 0 := Subsingleton.elim _ _
  have hi := idx_w2 t
  rw [tile_rowmin]
  unfold G2
  refine congrArg₂ (Chamfer.dpt (Pc m c) (Tc m c)) (Fin.ext ?_) (Fin.ext ?_)
  · show t.val / 32 = win0_2.index t 0 * 1 + 1 * 0
    rw [hi.1]; omega
  · show t.val % 32 * 256 + r.val = win0_2.index t 2 * 256 + 1 * r.val
    rw [hi.2.2]; omega

/-- What point `t` writes back through the first output window is its block of `G2`. -/
private theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after2]
  funext y
  rw [View.read_apply]
  exact rowmin_at m c t y

/-- An index of the first result array is in point `t`'s block iff each coordinate is in the block's range on its axis. -/
private theorem mem_blk2 (t : Fin cfg0.N) (i : S4x1x8192.Idx) :
    i ∈ ((cfg0.win 2).blk t).view.set
      ↔ ∀ a : Fin 3, win0_2.index t a * S1x1x256.size a ≤ (i a).val ∧ (i a).val < win0_2.index t a * S1x1x256.size a + S1x1x256.size a := by
  show i ∈ ((View.whole main_v2_0).slice (win0_2.rect t)).set ↔ _
  rw [View.set_slice_whole, Rect.mem_set_unit]
  exact Iff.rfl

/-- The blocks tile the array: index `(b, 0, p)` is in the block of point `32 · b + p / 256`. -/
private theorem cover2 (i : S4x1x8192.Idx) :
    ∃ t : Fin cfg0.N, (cfg0.win 2).flush t = true ∧ i ∈ ((cfg0.win 2).blk t).view.set := by
  have hN : cfg0.N = 128 := N_0
  have h0 : (i 0).val < 4 := (i 0).isLt
  have h1 : (i 1).val < 1 := (i 1).isLt
  have h2 : (i 2).val < 8192 := (i 2).isLt
  have key : ∀ t : Fin cfg0.N, t.val = (i 0).val * 32 + (i 2).val / 256 → i ∈ ((cfg0.win 2).blk t).view.set := by
    intro t ht
    obtain ⟨e0, e1, e2⟩ := idx_w2 t
    rw [mem_blk2]
    intro a
    match a with
    | ⟨0, _⟩ =>
      show win0_2.index t 0 * 1 ≤ (i 0).val ∧ (i 0).val < win0_2.index t 0 * 1 + 1
      omega
    | ⟨1, _⟩ =>
      show win0_2.index t 1 * 1 ≤ (i 1).val ∧ (i 1).val < win0_2.index t 1 * 1 + 1
      omega
    | ⟨2, _⟩ =>
      show win0_2.index t 2 * 256 ≤ (i 2).val ∧ (i 2).val < win0_2.index t 2 * 256 + 256
      omega
  exact ⟨⟨(i 0).val * 32 + (i 2).val / 256, by omega⟩, flush0_2 _, key _ rfl⟩

/-! ## The second result array: each batch's last tile writes the batch row back -/

/-- What a batch's last point `t` leaves for the second output, at block index `y`, is `G3` at the array index under `y`:
    the running minimum after the batch's last tile is the minimum over all of the batch's pred points. -/
private theorem copy_at (c : Dev nD) (t : Fin cfg0.N) (h31 : t.val % 32 = 31) (y : S1x1x8192.Idx) :
    k0_pay1 (F := Ideal) (scAt m c t.val t.isLt) y = G3 m c (((cfg0.win 3).blk t).view.emb y) := by
  obtain ⟨u, v, q, rfl⟩ : ∃ (u : Fin 1) (v : Fin 1) (q : Fin 8192), y = ix3 u v q := ⟨y 0, y 1, y 2, eq_ix3 y⟩
  obtain rfl : u = 0 := Subsingleton.elim _ _
  obtain rfl : v = 0 := Subsingleton.elim _ _
  have hi := idx_w3 t
  rw [Pay.pay1_apply, scAt_last m c t h31 q]
  unfold G3
  refine congrArg₂ (Chamfer.dtp (Pc m c) (Tc m c)) (Fin.ext ?_) (Fin.ext ?_)
  · show t.val / 32 = win0_3.index t 0 * 1 + 1 * 0
    rw [hi.1]; omega
  · show q.val = win0_3.index t 2 * 8192 + 1 * q.val
    rw [hi.2.2]; omega

/-- What a writing point `t` writes back through the second output window is its block of `G3`. -/
private theorem flushed3_eq (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  show (cfg0.win 3).cut (grid0.coords t) ((dats m 0 c).after 3 t) = _
  rw [after3]
  funext y
  rw [View.read_apply]
  exact copy_at m c t h31 y

/-- An index of the second result array is in point `t`'s block iff each coordinate is in the block's range on its axis. -/
private theorem mem_blk3 (t : Fin cfg0.N) (i : S4x1x8192.Idx) :
    i ∈ ((cfg0.win 3).blk t).view.set
      ↔ ∀ a : Fin 3, win0_3.index t a * S1x1x8192.size a ≤ (i a).val ∧ (i a).val < win0_3.index t a * S1x1x8192.size a + S1x1x8192.size a := by
  show i ∈ ((View.whole main_v2_1).slice (win0_3.rect t)).set ↔ _
  rw [View.set_slice_whole, Rect.mem_set_unit]
  exact Iff.rfl

/-- The four batch rows tile the array: index `(b, 0, q)` is in the block of batch `b`'s last point `32 · b + 31`. -/
private theorem cover3 (i : S4x1x8192.Idx) :
    ∃ t : Fin cfg0.N, (cfg0.win 3).flush t = true ∧ i ∈ ((cfg0.win 3).blk t).view.set := by
  have hN : cfg0.N = 128 := N_0
  have h0 : (i 0).val < 4 := (i 0).isLt
  have h1 : (i 1).val < 1 := (i 1).isLt
  have h2 : (i 2).val < 8192 := (i 2).isLt
  have key : ∀ t : Fin cfg0.N, t.val = (i 0).val * 32 + 31 → i ∈ ((cfg0.win 3).blk t).view.set := by
    intro t ht
    obtain ⟨e0, e1, e2⟩ := idx_w3 t
    rw [mem_blk3]
    intro a
    match a with
    | ⟨0, _⟩ =>
      show win0_3.index t 0 * 1 ≤ (i 0).val ∧ (i 0).val < win0_3.index t 0 * 1 + 1
      omega
    | ⟨1, _⟩ =>
      show win0_3.index t 1 * 1 ≤ (i 1).val ∧ (i 1).val < win0_3.index t 1 * 1 + 1
      omega
    | ⟨2, _⟩ =>
      show win0_3.index t 2 * 8192 ≤ (i 2).val ∧ (i 2).val < win0_3.index t 2 * 8192 + 8192
      omega
  refine ⟨⟨(i 0).val * 32 + 31, by omega⟩, (flush0_3 _).mpr ?_, key _ rfl⟩
  show ((i 0).val * 32 + 31) % 32 = 31
  omega

/-- The first result array after the run. -/
theorem final2 (c : Dev nD) : (dats m 0 c).arrAt 2 cfg0.N = G2 m c := by
  exact (dats m 0 c).arrAt_eq_of_cover 2 (G2 m c) (fun t _ => flushed2_eq m c t) (fun i => cover2 i)

/-- The second result array after the run. -/
theorem final3 (c : Dev nD) : (dats m 0 c).arrAt 3 cfg0.N = G3 m c := by
  exact (dats m 0 c).arrAt_eq_of_cover 3 (G3 m c) (flushed3_eq m c) (fun i => cover3 i)

end Cert.KernelIdeal.Body

end
-- ==== Proof.KTail.lean ====
import proofs.«165203_j3032246911459_1_alg».proof.Proof.Tile
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-!
# The host lines after the region

They drop the unit axis of each result array ([4, 1, 8192] to [4, 8192]), sum each over both axes from the zero word,
divide each sum by the word of 32768, and add the two quotients: the mean of the nearest-target distances plus the mean of
the nearest-pred distances. The words are kept as they are printed: the reference ends with the same lines.
-/

/-- The mean of each of two [4, 8192] arrays, the two means added. -/
def meanSum (a b : FVec Ideal S4x8192 .f32) : FVec Ideal S_ .f32 :=
  addf
    (Host.divf (Host.reduceAdd a (constant (F := Ideal) S_ .f32 0x00000000#32) reducesTo_S4x8192_S_d0_1 h_S_)
      (constant (F := Ideal) S_ .f32 0x47000000#32))
    (Host.divf (Host.reduceAdd b (constant (F := Ideal) S_ .f32 0x00000000#32) reducesTo_S4x8192_S_d0_1 h_S_)
      (constant (F := Ideal) S_ .f32 0x47000000#32))

/-- What the lines after the region leave in the result buffer, from the two arrays the region leaves. -/
theorem tail_eq (c : Dev nD) :
    Pipeline.afterTail₀ cfgs (dats m) 0 (V0 m) [hostOps1] c main_v9
      = meanSum (shapeCast S4x8192 ((dats m 0 c).arrAt 2 cfg0.N) shapeCasts_S4x1x8192_S4x8192)
          (shapeCast S4x8192 ((dats m 0 c).arrAt 3 cfg0.N) shapeCasts_S4x1x8192_S4x8192) := by
  have e2 : Pipeline.withArrays (cfgs 0).spec c (V0 m c) (fun w => (dats m 0 c).arrAt w (cfgs 0).N) (Proc.devRef .tc main_v2_0)
      = (dats m 0 c).arrAt 2 (cfgs 0).N :=
    Pipeline.withArrays_arr spec0 launch0.win.arr_inj c (V0 m c) (fun w => (dats m 0 c).arrAt w (cfgs 0).N) 2
  have e3 : Pipeline.withArrays (cfgs 0).spec c (V0 m c) (fun w => (dats m 0 c).arrAt w (cfgs 0).N) (Proc.devRef .tc main_v2_1)
      = (dats m 0 c).arrAt 3 (cfgs 0).N :=
    Pipeline.withArrays_arr spec0 launch0.win.arr_inj c (V0 m c) (fun w => (dats m 0 c).arrAt w (cfgs 0).N) 3
  unfold Pipeline.afterTail₀
  show StableHlo.after hostOps1 _ (Proc.devRef .tc main_v9) = _
  after_results
  rw [e2, e3]
  rfl

/-- A [4, 1, 8192] array with its unit axis dropped, at (b, p), is the array at (b, 0, p). -/
theorem dropMid_apply (X : S4x1x8192.Idx → EReal) (b : Fin 4) (p : Fin 8192) :
    shapeCast S4x8192 X shapeCasts_S4x1x8192_S4x8192 (ix2 b p) = X (ix3 b (0 : Fin 1) p) :=
  shapeCast_apply X _ (ix2 b p) (ix3 b (0 : Fin 1) p) (by
    rw [Shape.rowMajor_val_three, Shape.rowMajor_val_two]
    show (b.val * 1 + 0) * 8192 + p.val = b.val * 8192 + p.val
    omega)

end Cert.KernelIdeal.Body

end
-- ==== Proof.KValue.lean ====
import proofs.«165203_j3032246911459_1_alg».proof.Proof.Arrays
import proofs.«165203_j3032246911459_1_alg».proof.Proof.KTail

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-!
# The idealized kernel's result

The run leaves the two result arrays at the nearest-target and nearest-pred distances; the host lines after the region
turn them into the mean of the one plus the mean of the other.
-/

/-- The first result array with its unit axis dropped is the array of nearest-target distances, -/
theorem dropMid_G2 (c : Dev nD) :
    shapeCast S4x8192 (G2 m c) shapeCasts_S4x1x8192_S4x8192 = Chamfer.dptArr (Pc m c) (Tc m c) := by
  funext i
  obtain ⟨b, p, rfl⟩ : ∃ (b : Fin 4) (p : Fin 8192), i = ix2 b p := ⟨i 0, i 1, eq_ix2 i⟩
  rw [dropMid_apply, G2_ix3, Chamfer.dptArr_ix2]
/-- and the second the array of nearest-pred distances. -/
theorem dropMid_G3 (c : Dev nD) :
    shapeCast S4x8192 (G3 m c) shapeCasts_S4x1x8192_S4x8192 = Chamfer.dtpArr (Pc m c) (Tc m c) := by
  funext i
  obtain ⟨b, q, rfl⟩ : ∃ (b : Fin 4) (q : Fin 8192), i = ix2 b q := ⟨i 0, i 1, eq_ix2 i⟩
  rw [dropMid_apply, G3_ix3, Chamfer.dtpArr_ix2]

/-- Every weakly fair execution of the idealized kernel's @main terminates with its result at the mean of the
    nearest-target distances plus the mean of the nearest-pred distances of the two clouds, which end unchanged. -/
theorem run_value : θ_run defs (onTc (τ := τ) (main (F := Ideal))) ⟨m, fun _ => 0, ρ⟩ (fun r => ∀ c : Dev nD,
      r.2.mem ((c.tc : Thread nD τ).loc main_v9) = meanSum (Chamfer.dptArr (Pc m c) (Tc m c)) (Chamfer.dtpArr (Pc m c) (Tc m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (by
        rw [tail_eq, final2, final3, dropMid_G2, dropMid_G3]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.RefSide.lean ====
import proofs.«165203_j3032246911459_1_alg».proof.Proof.Gen.ReferenceIdeal.Run
import proofs.«165203_j3032246911459_1_alg».proof.Proof.Gen.ReferenceIdeal.Read
import proofs.«165203_j3032246911459_1_alg».proof.Proof.Spec
import Idealize.ShloMosaic.Lib.ValueIdx
import Idealize.ShloMosaic.PureOps.Ideal.Laws

/-! The reference program's two nearest-neighbour arrays (the results of its two minimum reductions), read index by
    index over the extended reals. -/

noncomputable section

namespace Cert.ReferenceIdeal.RefSide

open Idealize.ShloMosaic Idealize.ShloMosaic.ValueIdx Cert.ReferenceIdeal Cert.ReferenceIdeal.Gen Cert.ReferenceIdeal.Read

/-- Through the two broadcasts and the sum over the coordinate axis, the pred cloud's squared norm reads P at (b, p, k). -/
private theorem idx_sqnP (b : Fin 4) (p q : Fin 8192) (k : Fin 3) :
    idx_main_v1 (idx_main_v5 (idx_main_v7 (ix3 b p q))) k = ix3 b p k :=
  funext fun a => Fin.ext (by match a with | ⟨0, _⟩ => rfl | ⟨1, _⟩ => rfl | ⟨2, _⟩ => rfl)

/-- Through the two broadcasts and the sum over the coordinate axis, the target cloud's squared norm reads T at (b, q, k). -/
private theorem idx_sqnT (b : Fin 4) (p q : Fin 8192) (k : Fin 3) :
    idx_main_v3 (idx_main_v6 (idx_main_v8 (ix3 b p q))) k = ix3 b q k :=
  funext fun a => Fin.ext (by match a with | ⟨0, _⟩ => rfl | ⟨1, _⟩ => rfl | ⟨2, _⟩ => rfl)

/-- The contraction's left operand at (b, p, q) and coordinate k is P at (b, p, k). -/
private theorem idx_crossL (b : Fin 4) (p q : Fin 8192) (k : Fin 3) :
    lidx_main_v4 (ix3 b p q) k = ix3 b p k :=
  funext fun a => Fin.ext (by match a with | ⟨0, _⟩ => rfl | ⟨1, _⟩ => rfl | ⟨2, _⟩ => rfl)

/-- The contraction's right operand at (b, p, q) and coordinate k is T at (b, q, k). -/
private theorem idx_crossR (b : Fin 4) (p q : Fin 8192) (k : Fin 3) :
    ridx_main_v4 (ix3 b p q) k = ix3 b q k :=
  funext fun a => Fin.ext (by match a with | ⟨0, _⟩ => rfl | ⟨1, _⟩ => rfl | ⟨2, _⟩ => rfl)

/-- The reference's distance array at (b, p, q) is the squared distance by the expanded square. -/
theorem ref_dist (P T : (⟨S4x8192x3, .f32⟩ : BufTy).Contents (Elt Ideal)) (b : Fin 4) (p q : Fin 8192) :
    val_main_v12 (F := Ideal) P T (ix3 b p q) = Chamfer.dist P T b p q := by
  rw [val_main_v12_apply, val_main_v9_apply, val_main_v11_apply, val_main_v7_apply, val_main_v8_apply,
    val_main_v5_apply, val_main_v6_apply, val_main_v1_apply, val_main_v3_apply, val_main_v10_apply,
    val_main_v4_apply, val_main_cst_apply, val_main_cst_0_apply, val_main_cst_1_apply]
  simp only [idx_sqnP, idx_sqnT, idx_crossL, idx_crossR, val_main_v0_apply, val_main_v2_apply,
    Ideal.mulf_def, Ideal.addf_def, Ideal.subf_def, Ideal.ofBits_def, Ideal.ofBits_zero_f32, zero_add]
  rfl

/-- The index (b, p) of the minimum over the target axis, with target coordinate k put back, is (b, p, k). -/
private theorem lift_target (h : S4x8192x8192.Reduces [2] S4x8192) (b : Fin 4) (p : Fin 8192)
    (k : Fin (S4x8192x8192.size 2)) : h.lift (ix2 b p) k = ix3 b p (⟨k.val, k.isLt⟩ : Fin 8192) := by
  funext c; apply Fin.ext
  match c with | ⟨0, _⟩ => rfl | ⟨1, _⟩ => rfl | ⟨2, _⟩ => rfl

/-- The index (b, q) of the minimum over the pred axis, with pred coordinate k put back, is (b, k, q). -/
private theorem lift_pred (h : S4x8192x8192.Reduces [1] S4x8192) (b : Fin 4) (q : Fin 8192)
    (k : Fin (S4x8192x8192.size 1)) : h.lift (ix2 b q) k = ix3 b (⟨k.val, k.isLt⟩ : Fin 8192) q := by
  funext c; apply Fin.ext
  match c with | ⟨0, _⟩ => rfl | ⟨1, _⟩ => rfl | ⟨2, _⟩ => rfl

/-- The reference's minimum over the target axis is each pred point's distance to its nearest target point. -/
theorem ref_dpt (P T : (⟨S4x8192x3, .f32⟩ : BufTy).Contents (Elt Ideal)) :
    val_main_v13 (F := Ideal) P T = Chamfer.dptArr P T := by
  funext i
  obtain ⟨b, p, rfl⟩ : ∃ (b : Fin 4) (p : Fin 8192), i = ix2 b p := ⟨i 0, i 1, eq_ix2 i⟩
  have h : S4x8192x8192.Reduces [2] S4x8192 := by decide
  unfold val_main_v13
  rw [Host.reduce_eq_fold_single FloatOps.minimumf _ _ reducesTo_S4x8192x8192_S4x8192_d2 h h_S_ _,
    val_main_cst_2_apply, Ideal.ofBits_def, Chamfer.ofBits_inf, Chamfer.dptArr_ix2]
  -- the fold of `min` from +∞ over the target coordinates is their infimum
  change (Finset.univ : Finset (Fin (S4x8192x8192.size 2))).inf (val_main_v12 (F := Ideal) P T ∘ h.lift (ix2 b p)) = _
  exact Finset.inf_congr rfl fun k _ => (congrArg (val_main_v12 (F := Ideal) P T) (lift_target h b p k)).trans
    (ref_dist P T b p ⟨k.val, k.isLt⟩)

/-- The reference's minimum over the pred axis is each target point's distance to its nearest pred point. -/
theorem ref_dtp (P T : (⟨S4x8192x3, .f32⟩ : BufTy).Contents (Elt Ideal)) :
    val_main_v14 (F := Ideal) P T = Chamfer.dtpArr P T := by
  funext i
  obtain ⟨b, q, rfl⟩ : ∃ (b : Fin 4) (q : Fin 8192), i = ix2 b q := ⟨i 0, i 1, eq_ix2 i⟩
  have h : S4x8192x8192.Reduces [1] S4x8192 := by decide
  unfold val_main_v14
  rw [Host.reduce_eq_fold_single FloatOps.minimumf _ _ reducesTo_S4x8192x8192_S4x8192_d1 h h_S_ _,
    val_main_cst_3_apply, Ideal.ofBits_def, Chamfer.ofBits_inf, Chamfer.dtpArr_ix2]
  -- the fold of `min` from +∞ over the pred coordinates is their infimum
  change (Finset.univ : Finset (Fin (S4x8192x8192.size 1))).inf (val_main_v12 (F := Ideal) P T ∘ h.lift (ix2 b q)) = _
  exact Finset.inf_congr rfl fun k _ => (congrArg (val_main_v12 (F := Ideal) P T) (lift_pred h b q k)).trans
    (ref_dist P T b ⟨k.val, k.isLt⟩ q)

end Cert.ReferenceIdeal.RefSide

end
-- ==== Proof.lean ====
/-
  The Chamfer distance of two point clouds [4, 8192, 3]: a tiled kernel against the plain formula.

  Both programs compute, for every pred point p and target point q of a batch, the squared distance by the expanded
  square, (|p|² + |q|²) − 2·⟨p, q⟩, then each pred point's minimum over the target points and each target point's minimum
  over the pred points, and return the mean of the first minima plus the mean of the second.

  The kernel walks a grid of 4 batches × 32 tiles of 256 pred points. At each grid point it forms the 256 × 8192 tile of
  distances (the inner products as one matrix product accumulated from zero), writes the tile's row minima out at once, and
  keeps a running column minimum in scratch across the batch's tiles: reset at the first tile, folded into at every later
  one, copied out at the last. Over the extended reals a row minimum of a tile IS the pred point's minimum over all target
  points, and the running column minimum after the last tile IS the target point's minimum over all pred points (a minimum
  of minima over a partition of the index set): the two programs' arrays of minima agree index by index, and the closing
  lines (sum, divide by 32768, add) are the same lines on both sides. No law beyond the lattice laws of `min` is used, so
  the precondition (finite inputs) is never opened.

  The three frames: the reference's is its run with the result dropped; each kernel's is the pipeline's frame run over
  proof data that names, point by point, what the body leaves in every buffer, the body's triple proved once for any
  float instance in each of its three control cases (first, middle, last tile).
-/
import proofs.«165203_j3032246911459_1_alg».proof.Defs
import proofs.«165203_j3032246911459_1_alg».proof.Proof.Gen.Kernel
import proofs.«165203_j3032246911459_1_alg».proof.Proof.Gen.KernelIdeal
import proofs.«165203_j3032246911459_1_alg».proof.Proof.Gen.ReferenceIdeal
import proofs.«165203_j3032246911459_1_alg».proof.Proof.Gen.Pre_finite_inputs
import proofs.«165203_j3032246911459_1_alg».proof.Proof.Gen.ReferenceIdeal.Run
import proofs.«165203_j3032246911459_1_alg».proof.Proof.Gen.ReferenceIdeal.Read
import proofs.«165203_j3032246911459_1_alg».proof.Proof.KData
import proofs.«165203_j3032246911459_1_alg».proof.Proof.KValue
import proofs.«165203_j3032246911459_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text. -/
theorem preserves : Cert.preserves_Kernel_KernelIdeal := trivial

/-- The reference's closing lines over its two arrays of minima are the kernel's closing lines over the same arrays. -/
theorem ref_result (P T : (⟨Cert.ReferenceIdeal.S4x8192x3, .f32⟩ : BufTy).Contents (Elt Ideal)) :
    Cert.ReferenceIdeal.Read.val_main_v19 (F := Ideal) P T
      = Cert.KernelIdeal.Body.meanSum (Chamfer.dptArr P T) (Chamfer.dtpArr P T) := by
  unfold Cert.ReferenceIdeal.Read.val_main_v19 Cert.ReferenceIdeal.Read.val_main_v16 Cert.ReferenceIdeal.Read.val_main_v18
    Cert.ReferenceIdeal.Read.val_main_v15 Cert.ReferenceIdeal.Read.val_main_v17
  rw [Cert.ReferenceIdeal.RefSide.ref_dpt, Cert.ReferenceIdeal.RefSide.ref_dtp]
  rfl

/-- At the extended reals, from memories that agree on the two clouds, both programs end with the mean of the
    nearest-target distances plus the mean of the nearest-pred distances. -/
theorem algebraic : Cert.algebraic_KernelIdeal_ReferenceIdeal := by
  intro m ρ m' ρ' _ hagree
  refine ⟨fun c => Cert.KernelIdeal.Body.meanSum
      (Chamfer.dptArr (Cert.KernelIdeal.Body.Pc m c) (Cert.KernelIdeal.Body.Tc m c))
      (Chamfer.dtpArr (Cert.KernelIdeal.Body.Pc m c) (Cert.KernelIdeal.Body.Tc m c)),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
